-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S50000x1 : Shape := ⟨2, ![50000, 1]⟩
abbrev S1x128 : Shape := ⟨2, ![1, 128]⟩
abbrev S2000x1 : Shape := ⟨2, ![2000, 1]⟩

abbrev nBuf : Space → Nat
  | .hbm => 58
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S128x128, .f32⟩
  | .hbm, ⟨38, _⟩ => ⟨S50000x128, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000x128, .f32⟩
  | .hbm, ⟨48, _⟩ => ⟨S650000x1, .f32⟩
  | .hbm, ⟨49, _⟩ => ⟨S650000x128, .f32⟩
  | .hbm, ⟨50, _⟩ => ⟨S650000x128, .f32⟩
  | .hbm, ⟨51, _⟩ => ⟨S_, .f32⟩
  | .hbm, ⟨52, _⟩ => ⟨S50000x128, .f32⟩
  | .hbm, ⟨53, _⟩ => ⟨S650000x1, .i32⟩
  | .hbm, ⟨54, _⟩ => ⟨S50000x128, .f32⟩
  | .hbm, ⟨55, _⟩ => ⟨S50000x1, .f32⟩
  | .hbm, ⟨56, _⟩ => ⟨S1x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S128x128, .f32⟩
  | .hbm, ⟨38, _⟩ => ⟨S50000x128, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000x128, .f32⟩
  | .hbm, ⟨48, _⟩ => ⟨S650000x1, .f32⟩
  | .hbm, ⟨49, _⟩ => ⟨S650000x128, .f32⟩
  | .hbm, ⟨50, _⟩ => ⟨S650000x128, .f32⟩
  | .hbm, ⟨51, _⟩ => ⟨S_, .f32⟩
  | .hbm, ⟨52, _⟩ => ⟨S50000x128, .f32⟩
  | .hbm, ⟨53, _⟩ => ⟨S650000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.HostValues.lean ====
/-
  What the host operations of the kernel's @main leave in the buffers the two regions and the result depend on,
  as functions of the launch arrays.  The kernel's host operations are, line for line, the reference's own up
  to its matrix product and from its gather of the projected features to its scatter-add, so each buffer is the
  reference's stage of the same name read at the kernel's launch arrays:
  before the projection the source and target node lists row and col (the edge list followed by the self loops),
  the inverse square-root degrees dinv, the per-edge normalisation norm and the transposed weights Wt;
  between the regions the aggregated messages agg (given that the projection left x · Wt), dinv laid out as a
  column and the bias laid out as a row.  No region and no host operation writes an argument array.
-/
import proofs.«161502_j63101659513102_1_alg».proof.Proof.Gen.KernelIdeal.Frame
import proofs.«161502_j63101659513102_1_alg».proof.Proof.Gen.ReferenceIdeal.Read
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (m : (ℓ : Loc nD τ sig) → Buf (Elt F) ℓ) (ρ : Dev nD → PrngReg)

/-- The four argument arrays as launched. -/
abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)

/-! ## Before the projection -/

theorem W1_arg0 (c : Dev nD) : W1 m ρ c (Proc.devRef .tc main_arg0) = x0 m c := by
  show StableHlo.after hostOps0 (W0 m ρ c) (Proc.devRef .tc main_arg0) = _
  dsimp only [hostOps0]
  after_results_simp <;> rfl

theorem W1_arg3 (c : Dev nD) : W1 m ρ c (Proc.devRef .tc main_arg3) = x3 m c := by
  show StableHlo.after hostOps0 (W0 m ρ c) (Proc.devRef .tc main_arg3) = _
  dsimp only [hostOps0]
  after_results_simp <;> rfl

/-- The transposed weights. -/
theorem W1_v27 (c : Dev nD) : W1 m ρ c (Proc.devRef .tc main_v27) = val_main_v27 (F := F) (x2 m c) := by
  show StableHlo.after hostOps0 (W0 m ρ c) (Proc.devRef .tc main_v27) = _
  dsimp only [hostOps0]
  after_results_simp <;> rfl

/-- The source node of every edge and self loop. -/
theorem W1_v3 (c : Dev nD) : W1 m ρ c (Proc.devRef .tc main_v3) = val_main_v3 (F := F) (x1 m c) := by
  show StableHlo.after hostOps0 (W0 m ρ c) (Proc.devRef .tc main_v3) = _
  dsimp only [hostOps0]
  after_results_simp <;> rfl

/-- The target node of every edge and self loop. -/
theorem W1_v6 (c : Dev nD) : W1 m ρ c (Proc.devRef .tc main_v6) = val_main_v6 (F := F) (x1 m c) := by
  show StableHlo.after hostOps0 (W0 m ρ c) (Proc.devRef .tc main_v6) = _
  dsimp only [hostOps0]
  after_results_simp <;> rfl

/-- The inverse square roots of the in-degrees. -/
theorem W1_v11 (c : Dev nD) : W1 m ρ c (Proc.devRef .tc main_v11) = val_main_v11 (F := F) (x1 m c) := by
  show StableHlo.after hostOps0 (W0 m ρ c) (Proc.devRef .tc main_v11) = _
  dsimp only [hostOps0]
  after_results_simp <;> rfl

/-- The normalisation of every edge: the product of its two end nodes' inverse square-root degrees. -/
theorem W1_v26 (c : Dev nD) : W1 m ρ c (Proc.devRef .tc main_v26) = val_main_v26 (F := F) (x1 m c) := by
  show StableHlo.after hostOps0 (W0 m ρ c) (Proc.devRef .tc main_v26) = _
  dsimp only [hostOps0]
  after_results_simp <;> rfl

/-! ## At the projection's exit: its output array as the pipeline leaves it, every other buffer as entered -/

theorem W2_v28 (c : Dev nD) : W2 m ρ c (Proc.devRef .tc main_v28) = (dat0 (V1 m ρ) c).arrAt 2 cfg0.N :=
  W2_arr m ρ c 2
theorem W2_v3 (c : Dev nD) : W2 m ρ c (Proc.devRef .tc main_v3) = val_main_v3 (F := F) (x1 m c) :=
  (W2_of_ne m ρ c main_v3 (by decide)).trans (W1_v3 m ρ c)
theorem W2_v6 (c : Dev nD) : W2 m ρ c (Proc.devRef .tc main_v6) = val_main_v6 (F := F) (x1 m c) :=
  (W2_of_ne m ρ c main_v6 (by decide)).trans (W1_v6 m ρ c)
theorem W2_v11 (c : Dev nD) : W2 m ρ c (Proc.devRef .tc main_v11) = val_main_v11 (F := F) (x1 m c) :=
  (W2_of_ne m ρ c main_v11 (by decide)).trans (W1_v11 m ρ c)
theorem W2_v26 (c : Dev nD) : W2 m ρ c (Proc.devRef .tc main_v26) = val_main_v26 (F := F) (x1 m c) :=
  (W2_of_ne m ρ c main_v26 (by decide)).trans (W1_v26 m ρ c)
theorem W2_arg3 (c : Dev nD) : W2 m ρ c (Proc.devRef .tc main_arg3) = x3 m c :=
  (W2_of_ne m ρ c main_arg3 (by decide)).trans (W1_arg3 m ρ c)

/-! ## Between the regions -/

/-- The aggregated messages, given that the projection left the reference's product. -/
theorem W3_v41 (c : Dev nD)
    (h28 : W2 m ρ c (Proc.devRef .tc main_v28) = val_main_v28 (F := F) (x0 m c) (x2 m c)) :
    W3 m ρ c (Proc.devRef .tc main_v41) = val_main_v41 (F := F) (x0 m c) (x1 m c) (x2 m c) := by
  show StableHlo.after hostOps1 (W2 m ρ c) (Proc.devRef .tc main_v41) = _
  dsimp only [hostOps1]
  after_results_simp
  rw [h28, W2_v3 m ρ c, W2_v6 m ρ c, W2_v26 m ρ c]
  rfl

/-- The inverse square-root degrees as one column. -/
theorem W3_v42 (c : Dev nD) :
    W3 m ρ c (Proc.devRef .tc main_v42) = shapeCast S50000x1 (val_main_v11 (F := F) (x1 m c)) shapeCasts_S50000_S50000x1 := by
  show StableHlo.after hostOps1 (W2 m ρ c) (Proc.devRef .tc main_v42) = _
  dsimp only [hostOps1]
  after_results_simp
  rw [W2_v11 m ρ c]
  rfl

/-- The bias as one row. -/
theorem W3_v43 (c : Dev nD) :
    W3 m ρ c (Proc.devRef .tc main_v43) = shapeCast S1x128 (x3 m c) shapeCasts_S128_S1x128 := by
  show StableHlo.after hostOps1 (W2 m ρ c) (Proc.devRef .tc main_v43) = _
  dsimp only [hostOps1]
  after_results_simp
  rw [W2_arg3 m ρ c]
  rfl

end Cert.KernelIdeal.HostValues

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.Linear.lean ====
/-
  The projection region.  Each of its 25 grid points takes 2000 consecutive rows of x and the whole
  128 x 128 matrix Wt, and stores their product (the narrowing of the operands to bf16 is the identity on
  extended reals, and the product goes into a zero accumulator).  So after the region its output array
  holds, at (p, q), the sum over k of x(p, k) · Wt(k, q): the product x · Wt, whatever the entry contents.
-/
import proofs.«161502_j63101659513102_1_alg».proof.Proof.Gen.KernelIdeal.Frame
import proofs.«161502_j63101659513102_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-- The product of a 50000 x 128 matrix by a 128 x 128 matrix over the extended reals, entry by entry. -/
def prod (x : S50000x128.Idx → EReal) (w : S128x128.Idx → EReal) : S50000x128.Idx → EReal :=
  fun i => ∑ k : Fin 128, x (ix2 (n0 := 50000) (i 0) k) * w (ix2 (n1 := 128) k (i 1))

theorem prod_apply (x : S50000x128.Idx → EReal) (w : S128x128.Idx → EReal) (p : Fin 50000) (q : Fin 128) :
    prod x w (ix2 p q) = ∑ k : Fin 128, x (ix2 p k) * w (ix2 k q) := rfl

/-- What one grid point stores, at entry (p, q) of its block: row p of the block of x against column q of Wt. -/
theorem pay_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  simp only [shapeCast_self]
  exact Cert.Lib.Matmul.matmul_zero_apply (A := 2000) (K := 128) (C := 128) none _ _ p q

theorem hz : (![0, 0] : Fin 2 → Nat) = fun _ => 0 := funext fun a => by fin_cases a <;> rfl

/-- The printed index maps over the grid: point t takes block t of the rows of x and of the output, and the
    one block of Wt. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the region's two input arrays. -/
theorem flushed_eq (c : Dev nD) (t : Fin cfg0.N) :
    (dat0 V c).flushed 2 t
      = ((cfg0.win 2).blk t).view.read (Elt Ideal) (prod (V c main_arg0) (V c main_v27)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  have ht : t.val < 25 := lt_of_lt_of_eq t.isLt N_0
  -- the row of the arrays that row p of block t is
  let P : Fin 50000 := ⟨t.val * 2000 + p.val, by have := p.isLt; omega⟩
  have hemb : ((cfg0.win 2).blk t).view.emb (ix2 p q) = ix2 P q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q)
      = prod (V c main_arg0) (V c main_v27) (((cfg0.win 2).blk t).view.emb (ix2 p q))
  rw [hemb, prod_apply]
  refine (pay_apply (iblk0 V c 0 t) (iblk0 V c 1 t) p q).trans (Finset.sum_congr rfl fun k _ => ?_)
  have hx : iblk0 V c 0 t (ix2 p k) = V c main_arg0 (ix2 P k) := by
    show V c main_arg0 (((cfg0.win 0).blk t).view.emb (ix2 p k)) = V c main_arg0 (ix2 P k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have hw : iblk0 V c 1 t (ix2 k q) = V c main_v27 (ix2 k q) := by
    show V c main_v27 (((cfg0.win 1).blk t).view.emb (ix2 k q)) = V c main_v27 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output array is in point t's block iff each coordinate is in the block's range. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v28).slice (win0_2.rect t)).set ↔ _
  rw [View.set_slice_whole, Rect.mem_set_unit]
  exact Iff.rfl

/-- Every row of the output lies in the block of the point its number divided by 2000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the region its output array is the product of its two input arrays as it found them. -/
theorem final (c : Dev nD) :
    (dat0 V c).arrAt 2 cfg0.N = prod (V c main_arg0) (V c main_v27) :=
  (dat0 V c).arrAt_eq_of_cover 2 (prod (V c main_arg0) (V c main_v27)) (fun t _ => flushed_eq V c t) cover

end Cert.KernelIdeal.Linear

end
-- ==== Proof.LibColBroadcast.lean ====
/-
  A column repeated along the columns, read at an entry (a general lemma: nothing here depends on a program).

  A column [A, 1] broadcast to B columns [A, B] holds at (p, q) the column's entry p: a broadcast reads a unit axis
  at 0 and every other axis at the result's coordinate.  Any sizes A, B; companion of the row form (a row [1, A]
  broadcast down B rows read at (p, q) is the row at q).
-/
import Idealize.ShloMosaic.Lib.ValueIdx
import Idealize.ShloMosaic.Lib.Pipeline.Value

noncomputable section

namespace Cert.Lib.ColBroadcast

open Idealize.ShloMosaic Idealize.ShloMosaic.ValueIdx

/-- A column [A, 1] broadcast to B columns, at (p, q), is the column at (p, 0). -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

end Cert.Lib.ColBroadcast

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.Epilogue.lean ====
/-
  The closing region.  Each of its 25 grid points takes 2000 consecutive rows of the aggregated messages a,
  the matching 2000 entries of the column d of inverse square-root degrees, and the one row b of the bias, and
  stores silu(a · d + b) entry by entry: d repeated along the columns, b down the rows, silu(v) = v · logistic(v).
  So after the region its output array holds, at (p, q), silu(a(p, q) · d(p, 0) + b(0, q)).
-/
import proofs.«161502_j63101659513102_1_alg».proof.Proof.Gen.KernelIdeal.Frame
import proofs.«161502_j63101659513102_1_alg».proof.Proof.LibColBroadcast
import proofs.«161502_j63101659513102_1_alg».proof.Proof.LibColToRow
import Idealize.ShloMosaic.Lib.Pipeline.Value
import Idealize.ShloMosaic.Lib.ValueIdx
import Idealize.ShloMosaic.PureOps.Ideal.Laws

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx
open Idealize.ShloMosaic.Pipeline (Dat)

/-- silu on the extended reals: v times the logistic function of v. -/
def silu (v : EReal) : EReal := v * Ideal.logistic v

/-- The scaled, shifted and activated matrix: silu(a(p, q) · d(p, 0) + b(0, q)) at entry (p, q). -/
def act (a : S50000x128.Idx → EReal) (d : S50000x1.Idx → EReal) (b : S1x128.Idx → EReal) : S50000x128.Idx → EReal :=
  fun i => silu (a i * d (ix2 (n0 := 50000) (i 0) (0 : Fin 1)) + b (ix2 (0 : Fin 1) (n1 := 128) (i 1)))

theorem act_apply (a : S50000x128.Idx → EReal) (d : S50000x1.Idx → EReal) (b : S1x128.Idx → EReal)
    (p : Fin 50000) (q : Fin 128) :
    act a d b (ix2 p q) = silu (a (ix2 p q) * d (ix2 p (0 : Fin 1)) + b (ix2 (0 : Fin 1) q)) := rfl

/-- What one grid point stores, at entry (p, q) of its block. -/
theorem pay_apply (x0 : Vec Ideal S2000x128 .f32) (x1 : Vec Ideal S2000x1 .f32) (x2 : Vec Ideal S1x128 .f32)
    (p : Fin 2000) (q : Fin 128) :
    k1_pay1 x0 x1 x2 (ix2 p q) = silu (x0 (ix2 p q) * x1 (ix2 p (0 : Fin 1)) + x2 (ix2 (0 : Fin 1) q)) := by
  unfold k1_pay1
  simp only [shapeCast_self]
  have h1 := Cert.Lib.ColBroadcast.bcastColMat_apply (A := 2000) (B := 128) x1 broadcasts_S2000x1_S2000x128 p q
  have h2 := Cert.Lib.ColToRow.bcastRowMat_apply (A := 128) (B := 2000) x2 broadcasts_S1x128_S2000x128 p q
  show silu (x0 (ix2 p q) * broadcastTo S2000x128 x1 broadcasts_S2000x1_S2000x128 (ix2 p q)
      + broadcastTo S2000x128 x2 broadcasts_S1x128_S2000x128 (ix2 p q)) = _
  rw [h1, h2]

theorem hz : (![0, 0] : Fin 2 → Nat) = fun _ => 0 := funext fun a => by fin_cases a <;> rfl

/-- The printed index maps over the grid: point t takes block t of the rows of a, of d and of the output, and the
    one block of b. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the activated matrix of the region's three input arrays. -/
theorem flushed_eq (c : Dev nD) (t : Fin cfg1.N) :
    (dat1 V c).flushed 3 t
      = ((cfg1.win 3).blk t).view.read (Elt Ideal) (act (V c main_v41) (V c main_v42) (V c main_v43)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz,
    View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  have ht : t.val < 25 := lt_of_lt_of_eq t.isLt N_1
  -- the row of the arrays that row p of block t is
  let P : Fin 50000 := ⟨t.val * 2000 + p.val, by have := p.isLt; omega⟩
  have hemb : ((cfg1.win 3).blk t).view.emb (ix2 p q) = ix2 P q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  show k1_pay1 (iblk1 V c 0 t) (iblk1 V c 1 t) (iblk1 V c 2 t) (ix2 p q)
      = act (V c main_v41) (V c main_v42) (V c main_v43) (((cfg1.win 3).blk t).view.emb (ix2 p q))
  rw [hemb, act_apply]
  refine (pay_apply (iblk1 V c 0 t) (iblk1 V c 1 t) (iblk1 V c 2 t) p q).trans ?_
  have ha : iblk1 V c 0 t (ix2 p q) = V c main_v41 (ix2 P q) := by
    show V c main_v41 (((cfg1.win 0).blk t).view.emb (ix2 p q)) = V c main_v41 (ix2 P q)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * q.val = q.val; omega
  have hd : iblk1 V c 1 t (ix2 p (0 : Fin 1)) = V c main_v42 (ix2 P (0 : Fin 1)) := by
    show V c main_v42 (((cfg1.win 1).blk t).view.emb (ix2 p (0 : Fin 1))) = V c main_v42 (ix2 P (0 : Fin 1))
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have hb : iblk1 V c 2 t (ix2 (0 : Fin 1) q) = V c main_v43 (ix2 (0 : Fin 1) q) := by
    show V c main_v43 (((cfg1.win 2).blk t).view.emb (ix2 (0 : Fin 1) q)) = V c main_v43 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [ha, hd, hb]

/-- An index of the output array is in point t's block iff each coordinate is in the block's range. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v44).slice (win1_3.rect t)).set ↔ _
  rw [View.set_slice_whole, Rect.mem_set_unit]
  exact Iff.rfl

/-- Every row of the output lies in the block of the point its number divided by 2000 names. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, -, -, e6, e7⟩ := idx_facts t
  have e6' : win1_3.index t (0 : Fin 2) = (i 0).val / 2000 := e6
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- After the region its output array is the activated matrix of its three input arrays as it found them. -/
theorem final (c : Dev nD) :
    (dat1 V c).arrAt 3 cfg1.N = act (V c main_v41) (V c main_v42) (V c main_v43) :=
  (dat1 V c).arrAt_eq_of_cover 3 (act (V c main_v41) (V c main_v42) (V c main_v43)) (fun t _ => flushed_eq V c t) cover

end Cert.KernelIdeal.Epilogue

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.RefBridge.lean ====
/-
  The reference's stages at the ideal values, in the kernel's terms.
  Its matrix product x · Wt is, entry by entry, the same sum over the 128 contracted positions that the projection
  region computes block by block.  Its closing stage multiplies the aggregated messages by the inverse square-root
  degree of the row, adds the bias of the column and applies silu in its expanded form,
  v · (1 / (1 + e^(-v))); the logistic function is 1 / (1 + e^(-v)) on every extended real, the infinities included,
  so that is v times the logistic function of v, the form the closing region stores.  A degree read through a
  column [50000, 1] and a bias read through a row [1, 128] are the same entries of the two vectors.
-/
import proofs.«161502_j63101659513102_1_alg».proof.Proof.Gen.ReferenceIdeal.Read
import proofs.«161502_j63101659513102_1_alg».proof.Proof.Linear
import proofs.«161502_j63101659513102_1_alg».proof.Proof.Epilogue
import proofs.«161502_j63101659513102_1_alg».proof.Proof.LibLayout
import proofs.«161502_j63101659513102_1_alg».proof.Proof.LibLayoutCol
import Idealize.ShloMosaic.PureOps.IdealRules

set_option maxRecDepth 16384

noncomputable section

namespace Cert.Bridge

open Idealize.ShloMosaic Idealize.ShloMosaic.ValueIdx
open Cert.KernelIdeal (S50000x128 S50000x1 S1x128 S50000 S128 S128x128 S2x600000)
open Cert.ReferenceIdeal.Read
open Cert.KernelIdeal.Linear (prod prod_apply)
open Cert.KernelIdeal.Epilogue (act act_apply silu)

/-- The word of 1.0 denotes the real number 1. -/
theorem one_f32 : Ideal.ofBits .f32 0x3F800000#32 = 1 := IdealRules.sign_bit.ideal_onePat .f32

/-- The expanded form of silu, v · (1 / (1 + e^(-v))), is v times the logistic function of v. -/
theorem silu_expanded (v : Ideal .f32) :
    FloatOps.mulf v (FloatOps.hostDivf (FloatOps.ofBits .f32 0x3F800000#32)
      (FloatOps.addf (FloatOps.ofBits .f32 0x3F800000#32) (FloatOps.hostUnary .exp (FloatOps.hostNegf v)))) = silu v := by
  simp only [Ideal.mulf_def, Ideal.hostDivf_def, Ideal.addf_def, Ideal.hostUnary_exp_def, Ideal.hostNegf_def,
    Ideal.negf_def, Ideal.ofBits_def, one_f32]
  rfl

/-- The reference's product is the sum the projection region computes. -/
theorem v28_eq_prod (x0 : (⟨S50000x128, .f32⟩ : BufTy).Contents (Elt Ideal))
    (x2 : (⟨S128x128, .f32⟩ : BufTy).Contents (Elt Ideal)) :
    val_main_v28 (F := Ideal) x0 x2 = prod x0 (val_main_v27 (F := Ideal) x2) := by
  funext i
  obtain ⟨p, q, rfl⟩ : ∃ (p : Fin 50000) (q : Fin 128), i = ix2 p q := ⟨i 0, i 1, eq_ix2 i⟩
  rw [val_main_v28_apply, prod_apply]
  refine Finset.sum_congr rfl fun k _ => ?_
  have el : lidx_main_v28 (ix2 p q) k = ix2 p k :=
    funext fun a => Fin.ext (by match a with | ⟨0, _⟩ => rfl | ⟨1, _⟩ => rfl)
  have er : ridx_main_v28 (ix2 p q) k = ix2 k q :=
    funext fun a => Fin.ext (by match a with | ⟨0, _⟩ => rfl | ⟨1, _⟩ => rfl)
  rw [el, er]

/-- The reference's result is the activated matrix of its aggregated messages, its inverse square-root degrees as a
    column and the bias as a row. -/
theorem v48_eq_act (x0 : (⟨S50000x128, .f32⟩ : BufTy).Contents (Elt Ideal))
    (x1 : (⟨S2x600000, .i32⟩ : BufTy).Contents (Elt Ideal)) (x2 : (⟨S128x128, .f32⟩ : BufTy).Contents (Elt Ideal))
    (x3 : (⟨S128, .f32⟩ : BufTy).Contents (Elt Ideal))
    (h1 : S50000.ShapeCasts S50000x1) (h2 : S128.ShapeCasts S1x128) :
    val_main_v48 (F := Ideal) x0 x1 x2 x3
      = act (val_main_v41 (F := Ideal) x0 x1 x2) (shapeCast S50000x1 (val_main_v11 (F := Ideal) x1) h1)
          (shapeCast S1x128 x3 h2) := by
  funext i
  obtain ⟨p, q, rfl⟩ : ∃ (p : Fin 50000) (q : Fin 128), i = ix2 p q := ⟨i 0, i 1, eq_ix2 i⟩
  have hc := Cert.Lib.LayoutCol.colCast_apply (A := 50000) (val_main_v11 (F := Ideal) x1) h1 p (0 : Fin 1)
  have hr := Cert.Lib.Layout.rowCast_apply (B := 128) x3 h2 (0 : Fin 1) q
  rw [act_apply, hc, hr]
  have e43 : idx_main_v42 (idx_main_v43 (ix2 p q)) = ix1 p :=
    funext fun a => Fin.ext (by match a with | ⟨0, _⟩ => rfl)
  have e46 : idx_main_v45 (idx_main_v46 (ix2 p q)) = ix1 q :=
    funext fun a => Fin.ext (by match a with | ⟨0, _⟩ => rfl)
  have hv : val_main_v47 (F := Ideal) x0 x1 x2 x3 (ix2 p q)
      = val_main_v41 (F := Ideal) x0 x1 x2 (ix2 p q) * val_main_v11 (F := Ideal) x1 (ix1 p) + x3 (ix1 q) := by
    rw [val_main_v47_apply, val_main_v44_apply, val_main_v43_apply, val_main_v42_apply, val_main_v46_apply,
      val_main_v45_apply, e43, e46]
    rfl
  rw [val_main_v48_apply, val_main_call0_v5_apply, val_main_call0_v4_apply, val_main_call0_cst_0_apply,
    val_main_call0_v3_apply, val_main_call0_v2_apply, val_main_call0_cst_apply, val_main_call0_v1_apply,
    val_main_call0_v0_apply, hv]
  exact silu_expanded _

end Cert.Bridge

end
-- ==== Proof.KernelValue.lean ====
/-
  The idealized kernel's result as one function of the launch arrays: the reference's own result.
  The projection region leaves x · Wt, which is the reference's matrix product; the host operations between the
  regions then leave the reference's aggregated messages, with the inverse square-root degrees as a column and the
  bias as a row; the closing region leaves silu(agg · dinv + b), entry by entry, which is what the reference's last
  stage computes.  The run of @main ends with its result array at the closing region's output.
-/
import proofs.«161502_j63101659513102_1_alg».proof.Proof.KernelRun
import proofs.«161502_j63101659513102_1_alg».proof.Proof.HostValues
import proofs.«161502_j63101659513102_1_alg».proof.Proof.Linear
import proofs.«161502_j63101659513102_1_alg».proof.Proof.Epilogue
import proofs.«161502_j63101659513102_1_alg».proof.Proof.RefBridge

set_option maxRecDepth 16384

noncomputable section

namespace Cert.KernelIdeal.Final

open Cert.KernelIdeal Cert.KernelIdeal.Gen Idealize.ShloMosaic Idealize.ShloMosaic.TcCoe Idealize.SL.Sem
open Cert.ReferenceIdeal.Read
open Cert.KernelIdeal.HostValues

variable (m : (ℓ : Loc nD τ sig) → Buf (Elt Ideal) ℓ) (ρ : Dev nD → PrngReg)

/-- The projection region leaves the reference's product of the launch arrays. -/
theorem projected (c : Dev nD) :
    W2 m ρ c (Proc.devRef .tc main_v28) = val_main_v28 (F := Ideal) (x0 m c) (x2 m c) := by
  rw [W2_v28 m ρ c, Linear.final (V1 m ρ) c]
  show Linear.prod (W1 m ρ c (Proc.devRef .tc main_arg0)) (W1 m ρ c (Proc.devRef .tc main_v27)) = _
  rw [W1_arg0 m ρ c, W1_v27 m ρ c]
  exact (Cert.Bridge.v28_eq_prod _ _).symm

/-- The result array at the last boundary holds the reference's result of the launch arrays. -/
theorem result (c : Dev nD) :
    W4 m ρ c (Proc.devRef .tc main_v44)
      = val_main_v48 (F := Ideal) (x0 m c) (x1 m c) (x2 m c) (x3 m c) := by
  rw [Cert.Bridge.v48_eq_act _ _ _ _ shapeCasts_S50000_S50000x1 shapeCasts_S128_S1x128]
  refine (W4_arr m ρ c 3).trans ((Epilogue.final (V3 m ρ) c).trans ?_)
  show Epilogue.act (W3 m ρ c (Proc.devRef .tc main_v41)) (W3 m ρ c (Proc.devRef .tc main_v42))
      (W3 m ρ c (Proc.devRef .tc main_v43)) = _
  rw [W3_v41 m ρ c (projected m ρ c), W3_v42 m ρ c, W3_v43 m ρ c]

/-- Every weakly fair execution of the idealized kernel's @main terminates with its result array at the reference's
    result of the launch arrays, the arguments unchanged. -/
theorem run : θ_run defs (onTc (τ := τ) (main (F := Ideal))) ⟨m, fun _ => 0, ρ⟩ (fun r => ∀ c : Dev nD,
      r.2.mem ((c.tc : Thread nD τ).loc main_v44)
        = val_main_v48 (F := Ideal) (x0 m c) (x1 m c) (x2 m c) (x3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (Cert.KernelIdeal.Result.run m ρ)

end Cert.KernelIdeal.Final

end
-- ==== Proof.lean ====
/-
  A graph-convolution layer against its plain specification, over the extended reals.
  Both programs add a self loop to every node, count in-degrees by a scatter-add of ones, take dinv = deg^(-1/2),
  form the per-edge normalisation dinv[source] · dinv[target], gather the projected features h = x · Wt along the
  edges, scale them, scatter-add them onto their targets, and return silu(agg · dinv + b).  The kernel does the
  projection and the closing step in two tiled regions of 2000 rows each and everything else with the same host
  operations as the reference.  At the ideal values the projection's narrowing of its operands is the identity
  and its block products are the rows of the one product x · Wt; the closing region's v · logistic(v) is the
  reference's v · (1 / (1 + e^(-v))).  So both results are one function of the arguments, entry by entry, with no
  use of the inputs' finiteness.  The three frames are the generated ones (the reference's from its run); the
  idealization rewrote nothing, so its preservation claim is trivial.
-/
import proofs.«161502_j63101659513102_1_alg».proof.Defs
import proofs.«161502_j63101659513102_1_alg».proof.Proof.Gen.Kernel
import proofs.«161502_j63101659513102_1_alg».proof.Proof.Gen.Kernel.Skeleton
import proofs.«161502_j63101659513102_1_alg».proof.Proof.Gen.Kernel.Launch
import proofs.«161502_j63101659513102_1_alg».proof.Proof.Gen.Kernel.Points
import proofs.«161502_j63101659513102_1_alg».proof.Proof.Gen.Kernel.Frame
import proofs.«161502_j63101659513102_1_alg».proof.Proof.Gen.KernelIdeal
import proofs.«161502_j63101659513102_1_alg».proof.Proof.Gen.KernelIdeal.Skeleton
import proofs.«161502_j63101659513102_1_alg».proof.Proof.Gen.KernelIdeal.Launch
import proofs.«161502_j63101659513102_1_alg».proof.Proof.Gen.KernelIdeal.Points
import proofs.«161502_j63101659513102_1_alg».proof.Proof.Gen.KernelIdeal.Frame
import proofs.«161502_j63101659513102_1_alg».proof.Proof.Gen.ReferenceIdeal
import proofs.«161502_j63101659513102_1_alg».proof.Proof.Gen.Pre_finite_inputs
import proofs.«161502_j63101659513102_1_alg».proof.Proof.Gen.ReferenceIdeal.Run
import proofs.«161502_j63101659513102_1_alg».proof.Proof.Gen.ReferenceIdeal.Read
import proofs.«161502_j63101659513102_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's last stage of the arguments, which agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
